-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x128 .f32) (main_arg5 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S4000x256 : Shape := ⟨2, ![4000, 256]⟩
abbrev S4000x128 : Shape := ⟨2, ![4000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 29
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x128, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Support.lean ====
/-
  The dense stage of the graph-convolution layer: what the kernel's output array holds after its 25 grid points.

  Each grid point t loads rows 4000·t … 4000·t+3999 of the node features x (all 256 columns) and the whole weight
  matrix W, and stores their product into rows 4000·t … 4000·t+3999 of the support array. Over the extended reals the
  narrowing of both operands to bf16 is the identity and the product into a zero accumulator is the plain sum, so entry
  (r, c) of a block is  ∑ₖ x[4000·t + r, k] · W[k, c].  The 25 row blocks tile the 100000 rows exactly, hence the whole
  array ends at  support x W (i) = ∑ₖ x[i₀, k] · W[k, i₁].
-/
import proofs.«429613_j1864015807058_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Support

open Cert.KernelIdeal Cert.KernelIdeal.Gen Idealize.ShloMosaic Idealize.ShloMosaic.TcCoe Idealize.SL.Sem
open Idealize.ShloMosaic.Pipeline (Dat)

/-! ## The product, entry by entry -/

/-- Entry (row of `i`, `k`) of the node features. -/
abbrev featAt (i : S100000x128.Idx) (k : Fin 256) : S100000x256.Idx := fun a => match a with
  | ⟨0, _⟩ => ⟨(i 0).val, (i 0).isLt⟩
  | ⟨1, _⟩ => ⟨k.val, k.isLt⟩
/-- Entry (`k`, column of `i`) of the weight matrix. -/
abbrev wgtAt (i : S100000x128.Idx) (k : Fin 256) : S256x128.Idx := fun a => match a with
  | ⟨0, _⟩ => ⟨k.val, k.isLt⟩
  | ⟨1, _⟩ => ⟨(i 1).val, (i 1).isLt⟩

/-- The support matrix x · W over the extended reals: entry `i` is the sum over `k` of x[i₀, k] · W[k, i₁]. -/
def support (x : (⟨S100000x256, .f32⟩ : BufTy).Contents (Elt Ideal)) (w : (⟨S256x128, .f32⟩ : BufTy).Contents (Elt Ideal)) :
    (⟨S100000x128, .f32⟩ : BufTy).Contents (Elt Ideal) :=
  fun i => ∑ k : Fin 256, x (featAt i k) * w (wgtAt i k)

/-! ## One block's product at an index -/

/-- Entry (row of `j`, `k`) of a block of 4000 feature rows. -/
abbrev blkFeatAt (j : S4000x128.Idx) (k : Fin 256) : S4000x256.Idx := fun a => match a with
  | ⟨0, _⟩ => ⟨(j 0).val, (j 0).isLt⟩
  | ⟨1, _⟩ => ⟨k.val, k.isLt⟩
/-- Entry (`k`, column of `j`) of the weight matrix, from a block's index. -/
abbrev blkWgtAt (j : S4000x128.Idx) (k : Fin 256) : S256x128.Idx := fun a => match a with
  | ⟨0, _⟩ => ⟨k.val, k.isLt⟩
  | ⟨1, _⟩ => ⟨(j 1).val, (j 1).isLt⟩

/-- The left operand's row is the output's row. -/
theorem lhs_row (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- The left operand's column is the contraction index. -/
theorem lhs_col (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
/-- The right operand's row is the contraction index. -/
theorem rhs_row (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
/-- The right operand's column is the output's column. -/
theorem rhs_col (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- What the body stores, at an index: narrowing to bf16 is the identity over the extended reals, and the product into the
    zero accumulator is the sum over the 256 contracted entries. -/
theorem pay_apply (x0 : FVec Ideal S4000x256 .f32) (x1 : FVec Ideal S256x128 .f32) (j : S4000x128.Idx) :
    k0_pay1 (F := Ideal) x0 x1 j = ∑ k : Fin 256, x0 (blkFeatAt j k) * x1 (blkWgtAt j k) := by
  unfold k0_pay1
  show FloatOps.matmul dot_S4000x256_S256x128_S4000x128_1_0_0_1_n_n none x0 x1 (constant S4000x128 .f32 0x00000000#32) j = _
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx j ((ValueIdx.contrEquiv1 dot_S4000x256_S256x128_S4000x128_1_0_0_1_n_n 256 rfl rfl).symm k) = blkFeatAt j k := funext fun a => Fin.ext (by
    match a with
    | ⟨0, _⟩ => exact lhs_row _ _
    | ⟨1, _⟩ => exact (lhs_col _ _).trans hk)
  have er : dot_S4000x256_S256x128_S4000x128_1_0_0_1_n_n.rhsIdx j ((ValueIdx.contrEquiv1 dot_S4000x256_S256x128_S4000x128_1_0_0_1_n_n 256 rfl rfl).symm k) = blkWgtAt j k := funext fun a => Fin.ext (by
    match a with
    | ⟨0, _⟩ => exact (rhs_row _ _).trans hk
    | ⟨1, _⟩ => exact rhs_col _ _)
  rw [el, er]

/-- A block's stored entry is the support matrix's entry, once the block's operands are known to be the arrays' entries:
    the feature block's entry (row of `j`, `k`) is x at (row of `i`, `k`), the weight block's entry (`k`, column of `j`) is
    W at (`k`, column of `i`). -/
theorem pay_eq_support (X : (⟨S100000x256, .f32⟩ : BufTy).Contents (Elt Ideal)) (W : (⟨S256x128, .f32⟩ : BufTy).Contents (Elt Ideal))
    (bx : FVec Ideal S4000x256 .f32) (bw : FVec Ideal S256x128 .f32) (j : S4000x128.Idx) (i : S100000x128.Idx)
    (hx : ∀ k : Fin 256, bx (blkFeatAt j k) = X (featAt i k)) (hw : ∀ k : Fin 256, bw (blkWgtAt j k) = W (wgtAt i k)) :
    k0_pay1 (F := Ideal) bx bw j = support X W i := by
  rw [pay_apply]
  unfold support
  exact Finset.sum_congr rfl fun k _ => by rw [hx k, hw k]

/-! ## From the 25 row blocks to the array -/

variable (m : (ℓ : Loc nD τ sig) → Buf (Elt Ideal) ℓ)

theorem off_zero : (![0, 0] : Fin 2 → Nat) = fun _ => 0 := funext fun a => by fin_cases a <;> rfl

/-- The printed index maps over the grid: the feature block and the output block of point `t` are row block `t`, column
    block 0; the weight block is always the whole matrix. -/
theorem blocks_of_point : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is row block `t` of `support` of the arrays the region finds. -/
theorem flushed_eq (c : Dev nD) (t : Fin cfg0.N) :
    (dats m 0 c).flushed 2 t = ((cfg0.win 2).blk t).view.read (Elt Ideal) (support (V m c main_arg0) (V m c main_arg4)) := by
  show (cfg0.win 2).cut (grid0.coords t) ((dats m 0 c).after 2 t) = _
  rw [after0_2]
  unfold out0_2
  rw [View.canon_unit_zero off_zero]
  simp only [View.ld_unit_zero (S := S4000x256) off_zero, View.ld_unit_zero (S := S256x128) off_zero]
  obtain ⟨e0, e1, e2, e3, e4, e5⟩ := blocks_of_point t
  funext j
  refine pay_eq_support (V m c main_arg0) (V m c main_arg4) (iblk m c 0 t) (iblk m c 1 t) j (((cfg0.win 2).blk t).view.emb j) (fun k => ?_) (fun k => ?_)
  · have hx : ((cfg0.win 0).blk t).view.emb (blkFeatAt j k) = featAt (((cfg0.win 2).blk t).view.emb j) k := by
      funext a; apply Fin.ext
      match a with
      | ⟨0, _⟩ => show win0_0.index t (0 : Fin 2) * 4000 + 1 * (j 0).val = win0_2.index t (0 : Fin 2) * 4000 + 1 * (j 0).val; omega
      | ⟨1, _⟩ => show win0_0.index t (1 : Fin 2) * 256 + 1 * k.val = k.val; omega
    show V m c main_arg0 (((cfg0.win 0).blk t).view.emb (blkFeatAt j k)) = _
    rw [hx]
  · have hw : ((cfg0.win 1).blk t).view.emb (blkWgtAt j k) = wgtAt (((cfg0.win 2).blk t).view.emb j) k := by
      funext a; apply Fin.ext
      match a with
      | ⟨0, _⟩ => show win0_1.index t (0 : Fin 2) * 256 + 1 * k.val = k.val; omega
      | ⟨1, _⟩ => show win0_1.index t (1 : Fin 2) * 128 + 1 * (j 1).val = win0_2.index t (1 : Fin 2) * 128 + 1 * (j 1).val; omega
    show V m c main_arg4 (((cfg0.win 1).blk t).view.emb (blkWgtAt j k)) = _
    rw [hw]

/-- An index of the support array is in point `t`'s block iff each coordinate is in the block's range on its axis. -/
theorem mem_blk (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v0).slice (win0_2.rect t)).set ↔ _
  rw [View.set_slice_whole, Rect.mem_set_unit]
  exact Iff.rfl

/-- Every row lies in the block of the point  row / 4000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  obtain ⟨e0, e1, e2, e3, e4, e5⟩ := blocks_of_point t
  have e4' : win0_2.index t (0 : Fin 2) = (i 0).val / 4000 := e4
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The support array after the region: x · W of the argument arrays. -/
theorem final (c : Dev nD) :
    (dats m 0 c).arrAt 2 cfg0.N = support (m ((c : Thread nD τ).loc main_arg0)) (m ((c : Thread nD τ).loc main_arg4)) :=
  (dats m 0 c).arrAt_eq_of_cover 2 (support (V m c main_arg0) (V m c main_arg4)) (fun t _ => flushed_eq m c t) covered

end Cert.KernelIdeal.Support

end
-- ==== Proof.Tail.lean ====
/-
  The sparse stage of the graph-convolution layer, and the kernel program's result.

  After the dense product the program gathers the support rows at the source node of every edge (a negative source index
  is first shifted by the number of nodes), scales each gathered row by its edge's weight, adds the scaled rows into the
  row of the edge's destination node starting from zero, adds the bias to every row and takes the maximum with zero.
  That chain is ONE function `aggregate` of the support matrix, the two index vectors, the edge weights and the bias; it is
  never opened here. The program's result is `aggregate` of  x · W  and the argument arrays: the chain reads the support
  array where the region left it and every other operand where the program found it.
-/
import proofs.«429613_j1864015807058_3_alg».proof.Proof.Support
import Idealize.ShloMosaic.Lib.StableHlo.Run

set_option maxRecDepth 16384

noncomputable section

namespace Cert.KernelIdeal.Tail

open Cert.KernelIdeal Cert.KernelIdeal.Gen Cert.KernelIdeal.Support Idealize.ShloMosaic Idealize.ShloMosaic.TcCoe Idealize.SL.Sem
open Idealize.ShloMosaic.Pipeline (Dat)

variable {F : FTy → Type} [FloatOps F]

/-- The sparse stage as one function: gather the support rows at the (wrapped) source indices, scale by the edge weights,
    add into the destination rows from zero, add the bias, clamp below at zero. -/
def aggregate (sup : (⟨S100000x128, .f32⟩ : BufTy).Contents (Elt F)) (src dst : (⟨S1600000, .i32⟩ : BufTy).Contents (Elt F))
    (ew : (⟨S1600000, .f32⟩ : BufTy).Contents (Elt F)) (bias : (⟨S128, .f32⟩ : BufTy).Contents (Elt F)) :
    (⟨S100000x128, .f32⟩ : BufTy).Contents (Elt F) :=
  maximumf (addf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (Host.gather gather_S100000x128_S1600000x1_S1600000x128_1_0_n_n_0_1_1128 sup (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 (broadcastInDim S1600000x1 ![0] bcast_S1600000_S1600000x1_0 ew)))) (broadcastInDim S100000x128 ![0, 1] bcast_S1x128_S100000x128_0_1 (broadcastInDim S1x128 ![1] bcast_S128_S1x128_1 bias))) (broadcastInDim S100000x128 ![] bcast_S_S100000x128 (constant S_ .f32 0x00000000#32))

/-- Equal operands, equal aggregates. -/
theorem aggregate_congr {sup sup' : (⟨S100000x128, .f32⟩ : BufTy).Contents (Elt F)} {src src' dst dst' : (⟨S1600000, .i32⟩ : BufTy).Contents (Elt F)}
    {ew ew' : (⟨S1600000, .f32⟩ : BufTy).Contents (Elt F)} {bias bias' : (⟨S128, .f32⟩ : BufTy).Contents (Elt F)}
    (h0 : sup = sup') (h1 : src = src') (h2 : dst = dst') (h3 : ew = ew') (h5 : bias = bias') :
    aggregate sup src dst ew bias = aggregate sup' src' dst' ew' bias' := by
  subst h0 h1 h2 h3 h5; rfl

set_option maxHeartbeats 2000000 in
/-- The lines after the region, run from any contents `W` of the buffers, leave the result buffer at `aggregate` of what `W`
    holds at the support array and at the four arguments the lines read. -/
theorem after_tail (W : Valuation τ sig (Elt F)) :
    StableHlo.after (List.flatten [hostOps1 (F := F), hostOps1_1]) W (Proc.devRef .tc main_v17)
      = aggregate (W (Proc.devRef .tc main_v0)) (W (Proc.devRef .tc main_arg1)) (W (Proc.devRef .tc main_arg2)) (W (Proc.devRef .tc main_arg3)) (W (Proc.devRef .tc main_arg5)) := by
  simp only [hostOps1, hostOps1_1, List.flatten_cons, List.flatten_nil, List.append_nil, List.cons_append, List.nil_append]
  after_results
  rfl

variable (m : (ℓ : Loc nD τ sig) → Buf (Elt Ideal) ℓ) (ρ : Dev nD → PrngReg)

/-- The result buffer after the whole program: `aggregate` of x · W and the argument arrays. -/
theorem result_eq (c : Dev nD) :
    Pipeline.afterTail₀ cfgs (dats m) 0 (V0 m) [hostOps1, hostOps1_1] c main_v17
      = aggregate (F := Ideal) (support (m ((c : Thread nD τ).loc main_arg0)) (m ((c : Thread nD τ).loc main_arg4))) (m ((c : Thread nD τ).loc main_arg1)) (m ((c : Thread nD τ).loc main_arg2)) (m ((c : Thread nD τ).loc main_arg3)) (m ((c : Thread nD τ).loc main_arg5)) := by
  unfold Pipeline.afterTail₀
  refine (after_tail (F := Ideal) _).trans (aggregate_congr ?_ ?_ ?_ ?_ ?_)
  · exact (Pipeline.withArrays_arr spec0 launch0.win.arr_inj c _ _ 2).trans (Support.final m c)
  · exact (Pipeline.withArrays_of_ne _ c (V0 m c) _ main_arg1 (by exact (by decide : ∀ w, Pipeline.arrRef spec0 w ≠ main_arg1))).trans (V_main_arg1 m c)
  · exact (Pipeline.withArrays_of_ne _ c (V0 m c) _ main_arg2 (by exact (by decide : ∀ w, Pipeline.arrRef spec0 w ≠ main_arg2))).trans (V_main_arg2 m c)
  · exact (Pipeline.withArrays_of_ne _ c (V0 m c) _ main_arg3 (by exact (by decide : ∀ w, Pipeline.arrRef spec0 w ≠ main_arg3))).trans (V_main_arg3 m c)
  · exact (Pipeline.withArrays_of_ne _ c (V0 m c) _ main_arg5 (by exact (by decide : ∀ w, Pipeline.arrRef spec0 w ≠ main_arg5))).trans (V_main_arg5 m c)

/-- The program's run with its result named: every weakly fair execution terminates with the result buffer at `aggregate` of
    x · W and the arguments, and the six argument arrays as they were. -/
theorem run : θ_run defs (onTc (τ := τ) (main (F := Ideal))) ⟨m, fun _ => 0, ρ⟩ (fun r => ∀ c : Dev nD,
      r.2.mem ((c.tc : Thread nD τ).loc main_v17) = aggregate (F := Ideal) (support (m ((c : Thread nD τ).loc main_arg0)) (m ((c : Thread nD τ).loc main_arg4))) (m ((c : Thread nD τ).loc main_arg1)) (m ((c : Thread nD τ).loc main_arg2)) (m ((c : Thread nD τ).loc main_arg3)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v17 (Pipeline.mem_restRefs_of main_v17 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c))⟩)
    (run_main m ρ)

end Cert.KernelIdeal.Tail

end
-- ==== Proof.RefValue.lean ====
/-
  The reference computes the same function of the arguments as the kernel program.

  The reference's first line is one matrix product of all 100000 feature rows with the weight matrix; over the extended
  reals its entry `i` is  ∑ₖ x[i₀, k] · W[k, i₁],  which is `support x W i`: the kernel's 25 row blocks and the reference's one
  product are the same 256-term sum at every entry, so no law of the extended reals beyond reading both sums is used and
  the finiteness of the inputs is never needed. Every later line of the reference is a line of the sparse stage, with the
  same literals: the reference's result is `aggregate` of that product and the arguments.
-/
import proofs.«429613_j1864015807058_3_alg».proof.Proof.Tail
import proofs.«429613_j1864015807058_3_alg».proof.Proof.Gen.ReferenceIdeal.Read

set_option maxRecDepth 16384

noncomputable section

namespace Cert.ReferenceIdeal.RefValue

open Idealize.ShloMosaic Idealize.ShloMosaic.TcCoe Idealize.SL.Sem
open Cert.KernelIdeal.Support Cert.KernelIdeal.Tail

/-- The reference's whole product is the support matrix: entry by entry the same sum over the 256 contracted entries. -/
theorem product_eq (x0 : (⟨Cert.ReferenceIdeal.S100000x256, .f32⟩ : BufTy).Contents (Elt Ideal)) (x4 : (⟨Cert.ReferenceIdeal.S256x128, .f32⟩ : BufTy).Contents (Elt Ideal)) :
    Cert.ReferenceIdeal.Read.val_main_v0 (F := Ideal) x0 x4 = support x0 x4 := by
  funext i
  rw [Cert.ReferenceIdeal.Read.val_main_v0_apply]
  rfl

/-- Line by line, at any reading of the floats: the reference's lines after its product are the lines of the sparse stage, with
    the same literals, so its result is `aggregate` of its product and the arguments. -/
theorem lines_eq {F : FTy → Type} [FloatOps F] (x0 : (⟨Cert.ReferenceIdeal.S100000x256, .f32⟩ : BufTy).Contents (Elt F)) (x1 x2 : (⟨Cert.ReferenceIdeal.S1600000, .i32⟩ : BufTy).Contents (Elt F))
    (x3 : (⟨Cert.ReferenceIdeal.S1600000, .f32⟩ : BufTy).Contents (Elt F)) (x4 : (⟨Cert.ReferenceIdeal.S256x128, .f32⟩ : BufTy).Contents (Elt F))
    (x5 : (⟨Cert.ReferenceIdeal.S128, .f32⟩ : BufTy).Contents (Elt F)) :
    Cert.ReferenceIdeal.Read.val_main_v17 (F := F) x0 x1 x2 x3 x4 x5 = aggregate (F := F) (Cert.ReferenceIdeal.Read.val_main_v0 (F := F) x0 x4) x1 x2 x3 x5 := rfl

/-- Over the extended reals the reference's result is the sparse stage applied to the support matrix and the arguments. -/
theorem result_eq (x0 : (⟨Cert.ReferenceIdeal.S100000x256, .f32⟩ : BufTy).Contents (Elt Ideal)) (x1 x2 : (⟨Cert.ReferenceIdeal.S1600000, .i32⟩ : BufTy).Contents (Elt Ideal))
    (x3 : (⟨Cert.ReferenceIdeal.S1600000, .f32⟩ : BufTy).Contents (Elt Ideal)) (x4 : (⟨Cert.ReferenceIdeal.S256x128, .f32⟩ : BufTy).Contents (Elt Ideal))
    (x5 : (⟨Cert.ReferenceIdeal.S128, .f32⟩ : BufTy).Contents (Elt Ideal)) :
    Cert.ReferenceIdeal.Read.val_main_v17 (F := Ideal) x0 x1 x2 x3 x4 x5 = aggregate (F := Ideal) (support x0 x4) x1 x2 x3 x5 :=
  (lines_eq x0 x1 x2 x3 x4 x5).trans (aggregate_congr (product_eq x0 x4) rfl rfl rfl rfl)

end Cert.ReferenceIdeal.RefValue

end
-- ==== Proof.lean ====
/-
  A graph-convolution layer: the Pallas program against its jnp reference, over the extended reals.

  Both programs compute  relu( segment_sum( (x · W)[src] ⊙ edge_weight, dst ) + bias ).  They differ only in the dense
  product: the kernel program computes x · W in 25 blocks of 4000 rows, each block a product of bf16-narrowed operands
  into a zero accumulator; the reference computes it as one product. Over the extended reals narrowing is the identity
  and both products are, at entry (r, c), the sum over k of x[r, k] · W[k, c]; the 25 blocks tile the rows exactly
  (Proof/Support.lean). The gather, the scaling, the scatter-add, the bias and the clamp are the same lines with the same
  literals in both programs and are carried as one function of the product and the arguments (Proof/Tail.lean,
  Proof/RefValue.lean). No law that fails at an infinity is used, so the finiteness of the inputs is not needed.
  The ideal pass rewrote nothing in the kernel program, so the idealization claim is trivial.
-/
import proofs.«429613_j1864015807058_3_alg».proof.Defs
import proofs.«429613_j1864015807058_3_alg».proof.Proof.Gen.Kernel
import proofs.«429613_j1864015807058_3_alg».proof.Proof.Gen.Kernel.Skeleton
import proofs.«429613_j1864015807058_3_alg».proof.Proof.Gen.Kernel.Launch
import proofs.«429613_j1864015807058_3_alg».proof.Proof.Gen.Kernel.Points
import proofs.«429613_j1864015807058_3_alg».proof.Proof.Gen.Kernel.Frame
import proofs.«429613_j1864015807058_3_alg».proof.Proof.Gen.KernelIdeal
import proofs.«429613_j1864015807058_3_alg».proof.Proof.Gen.KernelIdeal.Skeleton
import proofs.«429613_j1864015807058_3_alg».proof.Proof.Gen.KernelIdeal.Launch
import proofs.«429613_j1864015807058_3_alg».proof.Proof.Gen.KernelIdeal.Points
import proofs.«429613_j1864015807058_3_alg».proof.Proof.Gen.KernelIdeal.Frame
import proofs.«429613_j1864015807058_3_alg».proof.Proof.Gen.ReferenceIdeal
import proofs.«429613_j1864015807058_3_alg».proof.Proof.Gen.Pre_finite_inputs
import proofs.«429613_j1864015807058_3_alg».proof.Proof.Gen.ReferenceIdeal.Run
import proofs.«429613_j1864015807058_3_alg».proof.Proof.Gen.ReferenceIdeal.Read
import proofs.«429613_j1864015807058_3_alg».proof.Proof.Support
import proofs.«429613_j1864015807058_3_alg».proof.Proof.Tail
import proofs.«429613_j1864015807058_3_alg».proof.Proof.RefValue
import Idealize.ShloMosaic.Adequacy
import Idealize.ShloMosaic.Init

noncomputable section

namespace Cert.Proof

open Idealize.ShloMosaic Idealize.SL.Sem

/-- The word-level program terminates without a fault and leaves its arguments as they were. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From memories that agree on the six arguments both programs end with the result at the sparse stage applied to x · W and
    the arguments: the kernel program by its run read through the 25 row blocks, the reference by its run read line by line. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
